-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S16x128 : Shape := ⟨2, ![16, 128]⟩
abbrev S384x128 : Shape := ⟨2, ![384, 128]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S16x128 : S_.BroadcastsInDim S16x128 (![] : Fin 0 → Fin S16x128.rank)
  reducesTo_S16x128_S_d0_1 : S16x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg8 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg8 main_v34
  let main_c_13 : IVec S_ 32 := constantI S_ 32 16#32
  let main_v36 : IVec S100000 32 := broadcastInDim S100000 ![] bcast_S_S100000 main_c_13
  let main_v37 : IVec S100000 1 := cmpi .slt main_arg8 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  main_v40

def fn_part1 {F : FTy → Type} [FloatOps F] (main_arg4 : FVec F S128 .f32) (main_arg5 : FVec F S128x128 .f32) (main_arg6 : FVec F S128 .f32) (main_arg8 : IVec S100000 32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : FVec F S1600000x128 .f32) (main_arg2 : FVec F S16x128 .f32) (main_arg3 : FVec F S384x128 .f32) (main_arg4 : FVec F S128 .f32) (main_arg5 : FVec F S128x128 .f32) (main_arg6 : FVec F S128 .f32) (main_arg7 : IVec S2x1600000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_arg8 main_v13 main_v16
-- ==== Kernel.lean ====
abbrev S100000x128 : Shape := ⟨2, ![100000, 128]⟩
abbrev S1600000x128 : Shape := ⟨2, ![1600000, 128]⟩
abbrev S16x128 : Shape := ⟨2, ![16, 128]⟩
abbrev S384x128 : Shape := ⟨2, ![384, 128]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S2000x16 : Shape := ⟨2, ![2000, 16]⟩
abbrev S1x128 : Shape := ⟨2, ![1, 128]⟩

abbrev nBuf : Space → Nat
  | .hbm => 32
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S16x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x1600000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x128, .f32⟩
  | .hbm, ⟨13, _⟩ => ⟨S1600000x1, .i32⟩
  | .hbm, ⟨14, _⟩ => ⟨S100000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S100000x128, .f32⟩
  | .hbm, ⟨27, _⟩ => ⟨S100000x1, .i32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .i32⟩
  | .local _ .vmem, ⟨5, _⟩ => ⟨S2000x1, .i32⟩
  | .local _ .vmem, ⟨6, _⟩ => ⟨S16x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128, .f32⟩
  | .local _ .vmem, ⟨11, _⟩ => ⟨S128x128, .f32⟩
  | .local _ .vmem, ⟨12, _⟩ => ⟨S128, .f32⟩
  | .local _ .vmem, ⟨13, _⟩ => ⟨S2000x128, .f32⟩
  | .local _ .vmem, ⟨14, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S100000_S100000x1 : S100000.ShapeCasts S100000x1
  slices_S384x128_S128x128_0_0 : S384x128.Slices ![0, 0] S128x128
  slices_S384x128_S128x128_128_0 : S384x128.Slices ![128, 0] S128x128
  slices_S384x128_S128x128_256_0 : S384x128.Slices ![256, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x16_d1_w32 : S2000x16.Iotas .tc 32 [1]
  broadcasts_S2000x1_S2000x16 : S2000x1.Broadcasts S2000x16
  natLt_1_32 : 1 < 32
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x16_S16x128_S2000x128_1_0_0_1_n_n_wf : DotDims.WF S2000x16 S16x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .i32 = 32 ∨ (Rect.block (s := S100000x1) S2000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S100000x128.size a
  hwx0_10 : ∀ i : grid0.Coords, EltTy.bits .f32 = 32 ∨ (Rect.block (s := S100000x128) S2000x128.size (cc0_transform_10 i) (hinb0_10 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S16x128 : Shape := ⟨2, ![16, 128]⟩
abbrev S384x128 : Shape := ⟨2, ![384, 128]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x384 : Shape := ⟨2, ![100000, 384]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S16x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x1600000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x128, .f32⟩
  | .hbm, ⟨13, _⟩ => ⟨S1600000x1, .i32⟩
  | .hbm, ⟨14, _⟩ => ⟨S100000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S100000x128, .f32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S100000x128, .f32⟩
  | .hbm, ⟨36, _⟩ => ⟨S100000x384, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_cst : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S16x128_S100000x1_S100000x128_1_0_n_n_0_1_1128_wf : GatherDims.WF S16x128 S100000x1 S100000x128 [1] [0] [] [0] [] 1 ![1, 128]
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S16x128_S100000x1_S100000x128_1_0_n_n_0_1_1128 : GatherDims S16x128 S100000x1 S100000x128 where
  offsetDims := [1]
  collapsedSliceDims := [0]
  operandBatchingDims := []
  startIndicesBatchingDims := []
  startIndexMap := [0]
  indexVectorDim := 1
  sliceSizes := ![1, 128]
  wf := gather_S16x128_S100000x1_S100000x128_1_0_n_n_0_1_1128_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowSpec.lean ====
/-
  One row of the node update, as plain mathematics over the extended reals.

  A node's new feature vector is a two-layer perceptron of three 128-wide pieces laid side by side: the node's own
  features, the mean of its incoming edge features, and the global feature vector of the graph the node belongs to.
  The first layer's weight matrix has 384 rows; cutting it into three 128-row slabs turns the product with the joined
  384-wide row into three products added together. `rowOut` is the row written in that three-product form;
  `sum_three` is the cut of a 384-term sum into its three 128-term stretches, and `onehot_sum` says that a sum
  weighted by the indicator of one index picks that index's term.
-/
import Idealize.ShloMosaic.PureOps.Ideal

open scoped BigOperators

namespace Cert.Gnn

/-- The updated features of one node at output column `d`: with `h k = ((xr·Wx + ar·Wa) + ur·Wu) k + b1 k` the hidden
    layer, the result is `∑ k, max (h k) 0 * W2 k d + b2 d`. -/
noncomputable def rowOut (xr ar ur : Fin 128 → EReal) (Wx Wa Wu : Fin 128 → Fin 128 → EReal) (b1 : Fin 128 → EReal)
    (W2 : Fin 128 → Fin 128 → EReal) (b2 : Fin 128 → EReal) (d : Fin 128) : EReal :=
  (∑ k : Fin 128,
      max ((((∑ j : Fin 128, xr j * Wx j k) + ∑ j : Fin 128, ar j * Wa j k) + ∑ j : Fin 128, ur j * Wu j k) + b1 k) 0
        * W2 k d) + b2 d

/-- A sum over 384 terms is the sum of its three consecutive stretches of 128 terms. Only associativity of `+` is
    used, so nothing needs to be finite. -/
theorem sum_three (f : Fin 384 → EReal) :
    ∑ k : Fin 384, f k
      = ((∑ j : Fin 128, f ⟨j.val, by omega⟩) + ∑ j : Fin 128, f ⟨128 + j.val, by omega⟩)
        + ∑ j : Fin 128, f ⟨256 + j.val, by omega⟩ := by
  rw [show (∑ k : Fin 384, f k) = ∑ k : Fin (256 + 128), f k from rfl, Fin.sum_univ_add,
    show (∑ i : Fin 256, f (Fin.castAdd 128 i)) = ∑ i : Fin (128 + 128), f (Fin.castAdd 128 i) from rfl,
    Fin.sum_univ_add]
  rfl

/-- A sum weighted by the indicator of the index `g0` is the term at `g0`: `0 * a = 0` and `1 * a = a` hold for every
    extended real `a`, the infinities included. -/
theorem onehot_sum (g0 : Fin 16) (c u : Fin 16 → EReal) (hc : ∀ g, c g = if g = g0 then 1 else 0) :
    ∑ g : Fin 16, c g * u g = u g0 := by
  rw [Finset.sum_eq_single g0]
  · rw [hc, if_pos rfl, one_mul]
  · intro g _ hg
    rw [hc, if_neg hg, zero_mul]
  · intro h
    exact absurd (Finset.mem_univ _) h

end Cert.Gnn
-- ==== Proof.KernelPoint.lean ====
/-
  The kernel body's arithmetic at one element, over the extended reals.

  For one block of 2000 nodes the body computes, at row `p` and output column `q`:
  the one-hot row `[batch p = g]` (g = 0 … 15) times the 16 × 128 table of global features — which, when the node's
  graph number is `g0`, is row `g0` of the table —; the hidden layer as three 128-term products (own features, mean edge
  features, the selected global row) plus the bias, clamped below at zero; and the second product plus its bias.
  The changes of float format are the identity here, and each matrix product into a zero accumulator is the plain sum
  over the contracted index.
-/
import proofs.«428514_j44942537785403_1_alg».proof.Proof.Gen.KernelIdeal.Skeleton
import proofs.«428514_j44942537785403_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-! ## A 128-term product: row `p` of the left operand against column `q` of the right -/

theorem lhs128_0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
theorem rhs128_0 (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
theorem rhs128_1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The 2000×128 by 128×128 product into the zero accumulator, at `(p, q)`: `∑ j, l (p, j) * r (j, q)`. -/
theorem matmul128_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ j : Fin 128, l (ix2 p j) * r (ix2 j q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ## The 16-term product that selects a row of the table -/

theorem lhs16_0 (i : S2000x128.Idx) (k : dot_S2000x16_S16x128_S2000x128_1_0_0_1_n_n.contr.Idx) :
    (dot_S2000x16_S16x128_S2000x128_1_0_0_1_n_n.lhsIdx i k 0).val = (i 0).val := by
  unfold DotDims.lhsIdx
  rw [dif_neg (show ¬(0 : Fin S2000x16.rank) ∈ dot_S2000x16_S16x128_S2000x128_1_0_0_1_n_n.lhsBatch by decide), dif_pos (show (0 : Fin S2000x16.rank) ∈ dot_S2000x16_S16x128_S2000x128_1_0_0_1_n_n.lhsNonContracting by decide)]
  rfl
theorem lhs16_1 (i : S2000x128.Idx) (k : dot_S2000x16_S16x128_S2000x128_1_0_0_1_n_n.contr.Idx) :
    (dot_S2000x16_S16x128_S2000x128_1_0_0_1_n_n.lhsIdx i k 1).val = (k ⟨0, by decide⟩).val :=
  dot_S2000x16_S16x128_S2000x128_1_0_0_1_n_n.lhsIdx_val_of_single rfl i k
theorem rhs16_0 (i : S2000x128.Idx) (k : dot_S2000x16_S16x128_S2000x128_1_0_0_1_n_n.contr.Idx) :
    (dot_S2000x16_S16x128_S2000x128_1_0_0_1_n_n.rhsIdx i k 0).val = (k ⟨0, by decide⟩).val :=
  dot_S2000x16_S16x128_S2000x128_1_0_0_1_n_n.rhsIdx_val_of_single rfl i k
theorem rhs16_1 (i : S2000x128.Idx) (k : dot_S2000x16_S16x128_S2000x128_1_0_0_1_n_n.contr.Idx) :
    (dot_S2000x16_S16x128_S2000x128_1_0_0_1_n_n.rhsIdx i k 1).val = (i 1).val := by
  unfold DotDims.rhsIdx
  rw [dif_neg (show ¬(1 : Fin S16x128.rank) ∈ dot_S2000x16_S16x128_S2000x128_1_0_0_1_n_n.rhsBatch by decide), dif_pos (show (1 : Fin S16x128.rank) ∈ dot_S2000x16_S16x128_S2000x128_1_0_0_1_n_n.rhsNonContracting by decide)]
  rfl

/-- The 2000×16 by 16×128 product into the zero accumulator, at `(p, q)`: `∑ g, l (p, g) * r (g, q)`. -/
theorem matmul16_apply (l : FVec Ideal S2000x16 .bf16) (r : FVec Ideal S16x128 .bf16) (p : Fin 2000) (q : Fin 128) :
    matmul dot_S2000x16_S16x128_S2000x128_1_0_0_1_n_n none l r (constant S2000x128 .f32 0x00000000#32) (ix2 p q)
      = ∑ g : Fin 16, l (ix2 p g) * r (ix2 g q) := by
  simp only [matmul]
  rw [Ideal.matmul_constant_zero_apply, ← Equiv.sum_comp (ValueIdx.contrEquiv1 dot_S2000x16_S16x128_S2000x128_1_0_0_1_n_n 16 rfl rfl).symm]
  refine Finset.sum_congr rfl fun k _ => ?_
  have hk := ValueIdx.contrEquiv1_symm_val dot_S2000x16_S16x128_S2000x128_1_0_0_1_n_n 16 rfl rfl k
  have el : dot_S2000x16_S16x128_S2000x128_1_0_0_1_n_n.lhsIdx (ix2 p q) ((ValueIdx.contrEquiv1 dot_S2000x16_S16x128_S2000x128_1_0_0_1_n_n 16 rfl rfl).symm k) = ix2 p k := funext fun a => Fin.ext (by
    match a with
    | ⟨0, _⟩ => exact lhs16_0 _ _
    | ⟨1, _⟩ => exact (lhs16_1 _ _).trans hk)
  have er : dot_S2000x16_S16x128_S2000x128_1_0_0_1_n_n.rhsIdx (ix2 p q) ((ValueIdx.contrEquiv1 dot_S2000x16_S16x128_S2000x128_1_0_0_1_n_n 16 rfl rfl).symm k) = ix2 k q := funext fun a => Fin.ext (by
    match a with
    | ⟨0, _⟩ => exact (rhs16_0 _ _).trans hk
    | ⟨1, _⟩ => exact rhs16_1 _ _)
  rw [el, er]

/-! ## The one-hot row -/

/-- The graph number of row `p`, spread over the 16 columns, reads the block's one column. -/
theorem spread_apply (b : IVec S2000x1 32) (p : Fin 2000) (g : Fin 16) :
    broadcastTo S2000x16 b broadcasts_S2000x1_S2000x16 (ix2 p g) = b (ix2 p (0 : Fin 1)) := by
  refine broadcastTo_apply b broadcasts_S2000x1_S2000x16 (ix2 p g) (ix2 p (0 : Fin 1)) fun ax => ?_
  match ax with
  | ⟨0, _⟩ => rfl
  | ⟨1, _⟩ => rfl

/-- Entry `(p, g)` of the one-hot matrix: `1` when the graph number of row `p` is `g`, else `0`. -/
theorem onehot_apply (b : IVec S2000x1 32) (p : Fin 2000) (g g0 : Fin 16) (hb : b (ix2 p (0 : Fin 1)) = BitVec.ofNat 32 g0.val) :
    (sitofp (F := Ideal) .f32 (extui 32 (cmpi .eq (broadcastTo S2000x16 b broadcasts_S2000x1_S2000x16)
        (iota .tc S2000x16 32 [1] iota_S2000x16_d1_w32)) natLt_1_32)) (ix2 p g) = if g = g0 then (1 : EReal) else 0 := by
  show ((((IntOp.cmpi .eq (broadcastTo S2000x16 b broadcasts_S2000x1_S2000x16 (ix2 p g)) (iota .tc S2000x16 32 [1] iota_S2000x16_d1_w32 (ix2 p g))).setWidth 32).toInt : ℝ) : EReal) = _
  rw [spread_apply, iota_single_apply, hb]
  show ((((IntOp.cmpi .eq (BitVec.ofNat 32 g0.val) (BitVec.ofNat 32 g.val)).setWidth 32).toInt : ℝ) : EReal) = _
  have hg0 : g0.val < 16 := g0.isLt
  have hg : g.val < 16 := g.isLt
  by_cases h : g = g0
  · subst h
    rw [if_pos rfl]
    have : IntOp.cmpi .eq (BitVec.ofNat 32 g.val) (BitVec.ofNat 32 g.val) = 1#1 := by simp [IntOp.cmpi]
    rw [this]
    simp
  · rw [if_neg h]
    have hne : g0.val ≠ g.val := fun e => h (Fin.ext e.symm)
    have : IntOp.cmpi .eq (BitVec.ofNat 32 g0.val) (BitVec.ofNat 32 g.val) = 0#1 := by
      have : (BitVec.ofNat 32 g0.val) ≠ (BitVec.ofNat 32 g.val) := by
        intro e
        have := congrArg BitVec.toNat e
        simp only [BitVec.toNat_ofNat] at this
        omega
      simp only [IntOp.cmpi]
      rw [beq_eq_false_iff_ne.mpr this]
      rfl
    rw [this]
    simp

/-! ## The biases -/

/-- A 128-vector made a row and repeated down 2000 rows reads the vector at the column. -/
theorem bias_apply (v : Vec Ideal S128 .f32) (p : Fin 2000) (q : Fin 128) :
    broadcastTo S2000x128 (shapeCast S1x128 v shapeCasts_S128_S1x128) broadcasts_S1x128_S2000x128 (ix2 p q) = v (ix1 q) := by
  rw [broadcastTo_1b_ab_apply, shapeCast_a_1a_apply]

/-! ## The two payloads -/

/-- The hidden layer the first part of the body hands on, at `(p, k)`, when row `p` belongs to graph `g0`. -/
theorem pay2_apply (x0 x1 : Vec Ideal S2000x128 .f32) (x2 : Vec Ideal S2000x1 .i32) (x3 : Vec Ideal S16x128 .f32)
    (x4 x5 x6 : Vec Ideal S128x128 .f32) (x7 : Vec Ideal S128 .f32) (p : Fin 2000) (k : Fin 128) (g0 : Fin 16)
    (hb : x2 (ix2 p (0 : Fin 1)) = BitVec.ofNat 32 g0.val) :
    k0_pay2 (F := Ideal) x0 x1 x2 x3 x4 x5 x6 x7 (ix2 p k)
      = max ((((∑ j : Fin 128, x0 (ix2 p j) * x4 (ix2 j k)) + ∑ j : Fin 128, x1 (ix2 p j) * x5 (ix2 j k))
          + ∑ j : Fin 128, x3 (ix2 g0 j) * x6 (ix2 j k)) + x7 (ix1 k)) 0 := by
  unfold k0_pay2
  simp only [shapeCast_self]
  show max (((matmul (F := Ideal) dot_S2000x128_S128x128_S2000x128_1_0_0_1_n_n none _ _ (constant S2000x128 .f32 0x00000000#32) (ix2 p k)
      + matmul (F := Ideal) dot_S2000x128_S128x128_S2000x128_1_0_0_1_n_n none _ _ (constant S2000x128 .f32 0x00000000#32) (ix2 p k))
      + matmul (F := Ideal) dot_S2000x128_S128x128_S2000x128_1_0_0_1_n_n none _ _ (constant S2000x128 .f32 0x00000000#32) (ix2 p k))
      + broadcastTo S2000x128 (shapeCast S1x128 x7 shapeCasts_S128_S1x128) broadcasts_S1x128_S2000x128 (ix2 p k)) (Ideal.ofBits .f32 0x00000000#32) = _
  rw [matmul128_apply, matmul128_apply, matmul128_apply, bias_apply, Ideal.ofBits_zero_f32]
  congr 3
  refine Finset.sum_congr rfl fun j _ => ?_
  congr 1
  show matmul (F := Ideal) dot_S2000x16_S16x128_S2000x128_1_0_0_1_n_n none _ _ (constant S2000x128 .f32 0x00000000#32) (ix2 p j) = _
  rw [matmul16_apply]
  exact Cert.Gnn.onehot_sum g0 _ (fun g => x3 (ix2 g j)) (fun g => onehot_apply x2 p g g0 hb)

/-- The stored value at `(p, q)`: the second product of the hidden layer, plus its bias. -/
theorem pay1_apply (h : FVec Ideal S2000x128 .bf16) (x8 : Vec Ideal S128x128 .f32) (x9 : Vec Ideal S128 .f32) (p : Fin 2000) (q : Fin 128) :
    k0_pay1 (F := Ideal) h x8 x9 (ix2 p q) = (∑ k : Fin 128, h (ix2 p k) * x8 (ix2 k q)) + x9 (ix1 q) := by
  unfold k0_pay1
  show matmul (F := Ideal) dot_S2000x128_S128x128_S2000x128_1_0_0_1_n_n none _ _ (constant S2000x128 .f32 0x00000000#32) (ix2 p q)
      + broadcastTo S2000x128 (shapeCast S1x128 x9 shapeCasts_S128_S1x128) broadcasts_S1x128_S2000x128 (ix2 p q) = _
  rw [matmul128_apply, bias_apply]
  rfl

/-- The whole body at `(p, q)` is the row formula of the block's rows, with the global feature row of graph `g0`. -/
theorem body_apply (x0 x1 : Vec Ideal S2000x128 .f32) (x2 : Vec Ideal S2000x1 .i32) (x3 : Vec Ideal S16x128 .f32)
    (x4 x5 x6 : Vec Ideal S128x128 .f32) (x7 : Vec Ideal S128 .f32) (x8 : Vec Ideal S128x128 .f32) (x9 : Vec Ideal S128 .f32)
    (p : Fin 2000) (q : Fin 128) (g0 : Fin 16) (hb : x2 (ix2 p (0 : Fin 1)) = BitVec.ofNat 32 g0.val) :
    k0_pay1 (F := Ideal) (k0_pay2 (F := Ideal) x0 x1 x2 x3 x4 x5 x6 x7) x8 x9 (ix2 p q)
      = Cert.Gnn.rowOut (fun j => x0 (ix2 p j)) (fun j => x1 (ix2 p j)) (fun j => x3 (ix2 g0 j))
          (fun j k => x4 (ix2 j k)) (fun j k => x5 (ix2 j k)) (fun j k => x6 (ix2 j k)) (fun k => x7 (ix1 k))
          (fun k d => x8 (ix2 k d)) (fun d => x9 (ix1 d)) q := by
  rw [pay1_apply]
  unfold Cert.Gnn.rowOut
  congr 1
  refine Finset.sum_congr rfl fun k _ => ?_
  rw [pay2_apply x0 x1 x2 x3 x4 x5 x6 x7 p k g0 hb]

end Cert.KernelIdeal.Point

end
-- ==== Proof.KernelHost.lean ====
/-
  What the host operations before the kernel hand to it.

  Before the kernel starts, the program turns the vector of graph numbers into a one-column matrix and cuts the 384-row
  first-layer matrix into its three 128-row slabs. Read at an index: the column's entry `r` is the vector's entry `r`,
  and slab `s` at `(j, k)` is the matrix at `(128 s + j, k)`. (The mean of the edge features is also computed there; it
  is carried as one array and never opened.)
-/
import proofs.«428514_j44942537785403_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The graph numbers as the kernel finds them: the argument vector laid out as one column. -/
theorem V_batch (c : Dev nD) : (V m c main_v14 : S100000x1.Idx → BitVec 32)
    = shapeCast S100000x1 (m ((c : Thread nD τ).loc main_arg8) : S100000.Idx → BitVec 32) shapeCasts_S100000_S100000x1 := by
  dsimp only [V, hostOps0]
  after_results
  rfl

/-- The first slab of the first-layer matrix: its rows 0 … 127. -/
theorem V_slab0 (c : Dev nD) : (V m c main_v15 : S128x128.Idx → Elt F .f32)
    = extractStridedSlice S128x128 ![0, 0] (m ((c : Thread nD τ).loc main_arg3) : S384x128.Idx → Elt F .f32) slices_S384x128_S128x128_0_0 := by
  dsimp only [V, hostOps0]
  after_results

/-- The second slab: rows 128 … 255. -/
theorem V_slab1 (c : Dev nD) : (V m c main_v16 : S128x128.Idx → Elt F .f32)
    = extractStridedSlice S128x128 ![128, 0] (m ((c : Thread nD τ).loc main_arg3) : S384x128.Idx → Elt F .f32) slices_S384x128_S128x128_128_0 := by
  dsimp only [V, hostOps0]
  after_results

/-- The third slab: rows 256 … 383. -/
theorem V_slab2 (c : Dev nD) : (V m c main_v17 : S128x128.Idx → Elt F .f32)
    = extractStridedSlice S128x128 ![256, 0] (m ((c : Thread nD τ).loc main_arg3) : S384x128.Idx → Elt F .f32) slices_S384x128_S128x128_256_0 := by
  dsimp only [V, hostOps0]
  after_results

/-- Entry `r` of the column of graph numbers is entry `r` of the argument vector. -/
theorem batch_apply (c : Dev nD) (r : Fin 100000) :
    (V m c main_v14 : S100000x1.Idx → BitVec 32) (ix2 r (0 : Fin 1))
      = (m ((c : Thread nD τ).loc main_arg8) : S100000.Idx → BitVec 32) (ix1 r) := by
  rw [V_batch]
  refine shapeCast_apply _ shapeCasts_S100000_S100000x1 (ix2 r (0 : Fin 1)) (ix1 r) ?_
  rw [Shape.rowMajor_val_two, Shape.rowMajor_val_one]
  show r.val = r.val * 1 + 0
  omega

theorem slab0_apply (c : Dev nD) (j k : Fin 128) :
    (V m c main_v15 : S128x128.Idx → Elt F .f32) (ix2 j k)
      = (m ((c : Thread nD τ).loc main_arg3) : S384x128.Idx → Elt F .f32) (ix2 (⟨j.val, by omega⟩ : Fin 384) k) := by
  rw [V_slab0]
  exact slice2_axis0_apply 0 _ slices_S384x128_S128x128_0_0 j k _ (Nat.zero_add _).symm

theorem slab1_apply (c : Dev nD) (j k : Fin 128) :
    (V m c main_v16 : S128x128.Idx → Elt F .f32) (ix2 j k)
      = (m ((c : Thread nD τ).loc main_arg3) : S384x128.Idx → Elt F .f32) (ix2 (⟨128 + j.val, by omega⟩ : Fin 384) k) := by
  rw [V_slab1]
  exact slice2_axis0_apply 128 _ slices_S384x128_S128x128_128_0 j k _ rfl

theorem slab2_apply (c : Dev nD) (j k : Fin 128) :
    (V m c main_v17 : S128x128.Idx → Elt F .f32) (ix2 j k)
      = (m ((c : Thread nD τ).loc main_arg3) : S384x128.Idx → Elt F .f32) (ix2 (⟨256 + j.val, by omega⟩ : Fin 384) k) := by
  rw [V_slab2]
  exact slice2_axis0_apply 256 _ slices_S384x128_S128x128_256_0 j k _ rfl

end Cert.KernelIdeal.HostPrefix

end
-- ==== Proof.NodeSpec.lean ====
/-
  The whole result array as one function of the argument arrays.

  Node `r`'s row of the result is the row formula `Cert.Gnn.rowOut` of: row `r` of the node features, row `r` of the mean
  edge features, the row of the global feature table that the node's graph number selects, the three 128-row slabs of
  the first-layer matrix, and the remaining weights. The graph number is a 32-bit word; where it is below 16 it names a
  row of the table directly (`gsel`).
-/
import proofs.«428514_j44942537785403_1_alg».proof.Proof.RowSpec
import Idealize.ShloMosaic.Lib.ValueIdx

open scoped BigOperators

namespace Cert.Gnn

open Idealize.ShloMosaic Idealize.ShloMosaic.ValueIdx

/-- The table row a graph number selects: the number itself when it is below 16 (its remainder modulo 16 otherwise,
    a case the precondition excludes). -/
def gsel (b : BitVec 32) : Fin 16 := ⟨b.toNat % 16, Nat.mod_lt _ (by decide)⟩

/-- A word below 16 is the word of the row it selects. -/
theorem eq_ofNat_gsel (b : BitVec 32) (h : b.toNat < 16) : b = BitVec.ofNat 32 (gsel b).val := by
  apply BitVec.eq_of_toNat_eq
  show b.toNat = (BitVec.ofNat 32 (b.toNat % 16)).toNat
  rw [BitVec.toNat_ofNat, Nat.mod_eq_of_lt h, Nat.mod_eq_of_lt (by omega)]

/-- Node `r`'s updated features at column `d`. -/
noncomputable def nodeRow (X AGG : (⟨2, ![100000, 128]⟩ : Shape).Idx → EReal) (U : (⟨2, ![16, 128]⟩ : Shape).Idx → EReal)
    (W1 : (⟨2, ![384, 128]⟩ : Shape).Idx → EReal) (B1 : (⟨1, ![128]⟩ : Shape).Idx → EReal)
    (W2 : (⟨2, ![128, 128]⟩ : Shape).Idx → EReal) (B2 : (⟨1, ![128]⟩ : Shape).Idx → EReal)
    (B : (⟨1, ![100000]⟩ : Shape).Idx → BitVec 32) (r : Fin 100000) (d : Fin 128) : EReal :=
  rowOut (fun j => X (ix2 r j)) (fun j => AGG (ix2 r j)) (fun j => U (ix2 (gsel (B (ix1 r))) j))
    (fun j k => W1 (ix2 (⟨j.val, by omega⟩ : Fin 384) k)) (fun j k => W1 (ix2 (⟨128 + j.val, by omega⟩ : Fin 384) k))
    (fun j k => W1 (ix2 (⟨256 + j.val, by omega⟩ : Fin 384) k)) (fun k => B1 (ix1 k))
    (fun k d => W2 (ix2 k d)) (fun d => B2 (ix1 d)) d

/-- The result array: every node's row. -/
noncomputable def nodeUpdate (X AGG : (⟨2, ![100000, 128]⟩ : Shape).Idx → EReal) (U : (⟨2, ![16, 128]⟩ : Shape).Idx → EReal)
    (W1 : (⟨2, ![384, 128]⟩ : Shape).Idx → EReal) (B1 : (⟨1, ![128]⟩ : Shape).Idx → EReal)
    (W2 : (⟨2, ![128, 128]⟩ : Shape).Idx → EReal) (B2 : (⟨1, ![128]⟩ : Shape).Idx → EReal)
    (B : (⟨1, ![100000]⟩ : Shape).Idx → BitVec 32) : (⟨2, ![100000, 128]⟩ : Shape).Idx → EReal :=
  fun i => nodeRow X AGG U W1 B1 W2 B2 B ⟨(i 0).val, (i 0).isLt⟩ ⟨(i 1).val, (i 1).isLt⟩

theorem nodeUpdate_apply (X AGG : (⟨2, ![100000, 128]⟩ : Shape).Idx → EReal) (U : (⟨2, ![16, 128]⟩ : Shape).Idx → EReal)
    (W1 : (⟨2, ![384, 128]⟩ : Shape).Idx → EReal) (B1 : (⟨1, ![128]⟩ : Shape).Idx → EReal)
    (W2 : (⟨2, ![128, 128]⟩ : Shape).Idx → EReal) (B2 : (⟨1, ![128]⟩ : Shape).Idx → EReal)
    (B : (⟨1, ![100000]⟩ : Shape).Idx → BitVec 32) (r : Fin 100000) (d : Fin 128) :
    nodeUpdate X AGG U W1 B1 W2 B2 B (ix2 r d) = nodeRow X AGG U W1 B1 W2 B2 B r d := rfl

end Cert.Gnn
-- ==== Proof.KernelValue.lean ====
/-
  From the blocks the kernel writes to the whole result array.

  The grid has 50 points; point `t` works on nodes `2000 t … 2000 t + 1999`: it reads those rows of the node features,
  of the mean edge features and of the column of graph numbers, reads the table of global features, the three slabs
  of the first-layer matrix, the second-layer matrix and the two biases whole, and writes those rows of the result.
  So element `(p, q)` of the block written at point `t` is the row formula of node `r = 2000 t + p` at column `q`
  — provided the node's graph number is below 16, which makes the one-hot product select a row of the table —, the 50
  blocks tile the 100000 rows, and the result array is `Cert.Gnn.nodeUpdate` of the arrays the kernel was given.
-/
import proofs.«428514_j44942537785403_1_alg».proof.Proof.Gen.KernelIdeal.Value
import proofs.«428514_j44942537785403_1_alg».proof.Proof.KernelPoint
import proofs.«428514_j44942537785403_1_alg».proof.Proof.KernelHost
import proofs.«428514_j44942537785403_1_alg».proof.Proof.NodeSpec
import Idealize.ShloMosaic.Lib.Pipeline.Value

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The result array: every node's row formula, over the arrays the kernel is given (the mean edge features as the
    host operations before the kernel left them). -/
abbrev G (c : Dev nD) : S100000x128.Idx → EReal :=
  Cert.Gnn.nodeUpdate (m ((c : Thread nD τ).loc main_arg0)) (V m c main_v13) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg8))

/-- The printed index maps over the grid: the row-blocked windows are at block `t`, the others at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = t.val ∧ win0_10.index t (1 : Fin 2) = 0) :=
  (by decide +kernel : ∀ t : Fin grid0.N, _)

/-! ## Each window's block at a point, read off its array

Stated for ANY contents `A` of the window's array: what the block holds at `(p, j)` is what the array holds at the
element's place, which the index maps put at block index × block size + the coordinate inside the block. -/

/-- A row-blocked window over a 100000 × 128 array (the node features): block `t` is rows `2000 t …`. -/
theorem read0 (t : Fin cfg0.N) (A : S100000x128.Idx → EReal) (p : Fin 2000) (j : Fin 128) (r : Fin 100000) (hr : r.val = t.val * 2000 + p.val) :
    ((cfg0.win 0).blk t).view.read (Elt Ideal) A (ix2 p j) = A (ix2 r j) := by
  obtain ⟨⟨e0, e1⟩, -⟩ := idx_facts t
  rw [View.read_apply]
  refine congrArg A ?_
  funext a; apply Fin.ext
  match a with
  | ⟨0, _⟩ => show win0_0.index t (0 : Fin 2) * 2000 + 1 * p.val = r.val; rw [e0, hr]; omega
  | ⟨1, _⟩ => show win0_0.index t (1 : Fin 2) * 128 + 1 * j.val = j.val; rw [e1]; omega

/-- The same for the window of the mean edge features. -/
theorem read1 (t : Fin cfg0.N) (A : S100000x128.Idx → EReal) (p : Fin 2000) (j : Fin 128) (r : Fin 100000) (hr : r.val = t.val * 2000 + p.val) :
    ((cfg0.win 1).blk t).view.read (Elt Ideal) A (ix2 p j) = A (ix2 r j) := by
  obtain ⟨-, ⟨e0, e1⟩, -⟩ := idx_facts t
  rw [View.read_apply]
  refine congrArg A ?_
  funext a; apply Fin.ext
  match a with
  | ⟨0, _⟩ => show win0_1.index t (0 : Fin 2) * 2000 + 1 * p.val = r.val; rw [e0, hr]; omega
  | ⟨1, _⟩ => show win0_1.index t (1 : Fin 2) * 128 + 1 * j.val = j.val; rw [e1]; omega

/-- The column of graph numbers: block `t` is entries `2000 t …`. -/
theorem read2 (t : Fin cfg0.N) (A : S100000x1.Idx → BitVec 32) (p : Fin 2000) (r : Fin 100000) (hr : r.val = t.val * 2000 + p.val) :
    ((cfg0.win 2).blk t).view.read (Elt Ideal) A (ix2 p (0 : Fin 1)) = A (ix2 r (0 : Fin 1)) := by
  obtain ⟨-, -, ⟨e0, e1⟩, -⟩ := idx_facts t
  rw [View.read_apply]
  refine congrArg A ?_
  funext a; apply Fin.ext
  match a with
  | ⟨0, _⟩ => show win0_2.index t (0 : Fin 2) * 2000 + 1 * p.val = r.val; rw [e0, hr]; omega
  | ⟨1, _⟩ => show win0_2.index t (1 : Fin 2) * 1 + 1 * 0 = 0; rw [e1]

/-- The table of global features: its one block is the table. -/
theorem read3 (t : Fin cfg0.N) (A : S16x128.Idx → EReal) (g : Fin 16) (j : Fin 128) :
    ((cfg0.win 3).blk t).view.read (Elt Ideal) A (ix2 g j) = A (ix2 g j) := by
  obtain ⟨-, -, -, ⟨e0, e1⟩, -⟩ := idx_facts t
  rw [View.read_apply]
  refine congrArg A ?_
  funext a; apply Fin.ext
  match a with
  | ⟨0, _⟩ => show win0_3.index t (0 : Fin 2) * 16 + 1 * g.val = g.val; rw [e0]; omega
  | ⟨1, _⟩ => show win0_3.index t (1 : Fin 2) * 128 + 1 * j.val = j.val; rw [e1]; omega

/-- The three slabs of the first-layer matrix and the second-layer matrix: each window's one block is its array. -/
theorem read4 (t : Fin cfg0.N) (A : S128x128.Idx → EReal) (j k : Fin 128) :
    ((cfg0.win 4).blk t).view.read (Elt Ideal) A (ix2 j k) = A (ix2 j k) := by
  obtain ⟨-, -, -, -, ⟨e0, e1⟩, -⟩ := idx_facts t
  rw [View.read_apply]
  refine congrArg A ?_
  funext a; apply Fin.ext
  match a with
  | ⟨0, _⟩ => show win0_4.index t (0 : Fin 2) * 128 + 1 * j.val = j.val; rw [e0]; omega
  | ⟨1, _⟩ => show win0_4.index t (1 : Fin 2) * 128 + 1 * k.val = k.val; rw [e1]; omega
theorem read5 (t : Fin cfg0.N) (A : S128x128.Idx → EReal) (j k : Fin 128) :
    ((cfg0.win 5).blk t).view.read (Elt Ideal) A (ix2 j k) = A (ix2 j k) := by
  obtain ⟨-, -, -, -, -, ⟨e0, e1⟩, -⟩ := idx_facts t
  rw [View.read_apply]
  refine congrArg A ?_
  funext a; apply Fin.ext
  match a with
  | ⟨0, _⟩ => show win0_5.index t (0 : Fin 2) * 128 + 1 * j.val = j.val; rw [e0]; omega
  | ⟨1, _⟩ => show win0_5.index t (1 : Fin 2) * 128 + 1 * k.val = k.val; rw [e1]; omega
theorem read6 (t : Fin cfg0.N) (A : S128x128.Idx → EReal) (j k : Fin 128) :
    ((cfg0.win 6).blk t).view.read (Elt Ideal) A (ix2 j k) = A (ix2 j k) := by
  obtain ⟨-, -, -, -, -, -, ⟨e0, e1⟩, -⟩ := idx_facts t
  rw [View.read_apply]
  refine congrArg A ?_
  funext a; apply Fin.ext
  match a with
  | ⟨0, _⟩ => show win0_6.index t (0 : Fin 2) * 128 + 1 * j.val = j.val; rw [e0]; omega
  | ⟨1, _⟩ => show win0_6.index t (1 : Fin 2) * 128 + 1 * k.val = k.val; rw [e1]; omega
theorem read8 (t : Fin cfg0.N) (A : S128x128.Idx → EReal) (j k : Fin 128) :
    ((cfg0.win 8).blk t).view.read (Elt Ideal) A (ix2 j k) = A (ix2 j k) := by
  obtain ⟨-, -, -, -, -, -, -, -, ⟨e0, e1⟩, -⟩ := idx_facts t
  rw [View.read_apply]
  refine congrArg A ?_
  funext a; apply Fin.ext
  match a with
  | ⟨0, _⟩ => show win0_8.index t (0 : Fin 2) * 128 + 1 * j.val = j.val; rw [e0]; omega
  | ⟨1, _⟩ => show win0_8.index t (1 : Fin 2) * 128 + 1 * k.val = k.val; rw [e1]; omega

/-- The two biases: each window's one block is its vector. -/
theorem read7 (t : Fin cfg0.N) (A : S128.Idx → EReal) (k : Fin 128) :
    ((cfg0.win 7).blk t).view.read (Elt Ideal) A (ix1 k) = A (ix1 k) := by
  obtain ⟨-, -, -, -, -, -, -, e0, -⟩ := idx_facts t
  rw [View.read_apply]
  refine congrArg A ?_
  funext a; apply Fin.ext
  match a with
  | ⟨0, _⟩ => show win0_7.index t (0 : Fin 1) * 128 + 1 * k.val = k.val; rw [e0]; omega
theorem read9 (t : Fin cfg0.N) (A : S128.Idx → EReal) (k : Fin 128) :
    ((cfg0.win 9).blk t).view.read (Elt Ideal) A (ix1 k) = A (ix1 k) := by
  obtain ⟨-, -, -, -, -, -, -, -, -, e0, -⟩ := idx_facts t
  rw [View.read_apply]
  refine congrArg A ?_
  funext a; apply Fin.ext
  match a with
  | ⟨0, _⟩ => show win0_9.index t (0 : Fin 1) * 128 + 1 * k.val = k.val; rw [e0]; omega

/-! ## The blocks of the arrays the kernel is given -/

/-- Rows `2000 t …` of the node features. -/
theorem iblk0_apply (c : Dev nD) (t : Fin cfg0.N) (p : Fin 2000) (j : Fin 128) (r : Fin 100000) (hr : r.val = t.val * 2000 + p.val) :
    (iblk m c 0 t : Vec Ideal S2000x128 .f32) (ix2 p j) = (m ((c : Thread nD τ).loc main_arg0) : S100000x128.Idx → EReal) (ix2 r j) :=
  (read0 t (V m c main_arg0) p j r hr).trans (congrFun (V_main_arg0 m c) (ix2 r j))

/-- Rows `2000 t …` of the mean edge features. -/
theorem iblk1_apply (c : Dev nD) (t : Fin cfg0.N) (p : Fin 2000) (j : Fin 128) (r : Fin 100000) (hr : r.val = t.val * 2000 + p.val) :
    (iblk m c 1 t : Vec Ideal S2000x128 .f32) (ix2 p j) = (V m c main_v13 : S100000x128.Idx → EReal) (ix2 r j) :=
  read1 t (V m c main_v13) p j r hr

/-- Entries `2000 t …` of the graph numbers. -/
theorem iblk2_apply (c : Dev nD) (t : Fin cfg0.N) (p : Fin 2000) (r : Fin 100000) (hr : r.val = t.val * 2000 + p.val) :
    (iblk m c 2 t : Vec Ideal S2000x1 .i32) (ix2 p (0 : Fin 1)) = (m ((c : Thread nD τ).loc main_arg8) : S100000.Idx → BitVec 32) (ix1 r) :=
  (read2 t (V m c main_v14) p r hr).trans (HostPrefix.batch_apply m c r)

/-- The table of global features, whole. -/
theorem iblk3_apply (c : Dev nD) (t : Fin cfg0.N) (g : Fin 16) (j : Fin 128) :
    (iblk m c 3 t : Vec Ideal S16x128 .f32) (ix2 g j) = (m ((c : Thread nD τ).loc main_arg2) : S16x128.Idx → EReal) (ix2 g j) :=
  (read3 t (V m c main_arg2) g j).trans (congrFun (V_main_arg2 m c) (ix2 g j))

/-- The first slab of the first-layer matrix. -/
theorem iblk4_apply (c : Dev nD) (t : Fin cfg0.N) (j k : Fin 128) :
    (iblk m c 4 t : Vec Ideal S128x128 .f32) (ix2 j k)
      = (m ((c : Thread nD τ).loc main_arg3) : S384x128.Idx → EReal) (ix2 (⟨j.val, by omega⟩ : Fin 384) k) :=
  (read4 t (V m c main_v15) j k).trans (HostPrefix.slab0_apply m c j k)

/-- The second slab. -/
theorem iblk5_apply (c : Dev nD) (t : Fin cfg0.N) (j k : Fin 128) :
    (iblk m c 5 t : Vec Ideal S128x128 .f32) (ix2 j k)
      = (m ((c : Thread nD τ).loc main_arg3) : S384x128.Idx → EReal) (ix2 (⟨128 + j.val, by omega⟩ : Fin 384) k) :=
  (read5 t (V m c main_v16) j k).trans (HostPrefix.slab1_apply m c j k)

/-- The third slab. -/
theorem iblk6_apply (c : Dev nD) (t : Fin cfg0.N) (j k : Fin 128) :
    (iblk m c 6 t : Vec Ideal S128x128 .f32) (ix2 j k)
      = (m ((c : Thread nD τ).loc main_arg3) : S384x128.Idx → EReal) (ix2 (⟨256 + j.val, by omega⟩ : Fin 384) k) :=
  (read6 t (V m c main_v17) j k).trans (HostPrefix.slab2_apply m c j k)

/-- The first bias. -/
theorem iblk7_apply (c : Dev nD) (t : Fin cfg0.N) (k : Fin 128) :
    (iblk m c 7 t : Vec Ideal S128 .f32) (ix1 k) = (m ((c : Thread nD τ).loc main_arg4) : S128.Idx → EReal) (ix1 k) :=
  (read7 t (V m c main_arg4) k).trans (congrFun (V_main_arg4 m c) (ix1 k))

/-- The second-layer matrix. -/
theorem iblk8_apply (c : Dev nD) (t : Fin cfg0.N) (k d : Fin 128) :
    (iblk m c 8 t : Vec Ideal S128x128 .f32) (ix2 k d) = (m ((c : Thread nD τ).loc main_arg5) : S128x128.Idx → EReal) (ix2 k d) :=
  (read8 t (V m c main_arg5) k d).trans (congrFun (V_main_arg5 m c) (ix2 k d))

/-- The second bias. -/
theorem iblk9_apply (c : Dev nD) (t : Fin cfg0.N) (d : Fin 128) :
    (iblk m c 9 t : Vec Ideal S128 .f32) (ix1 d) = (m ((c : Thread nD τ).loc main_arg6) : S128.Idx → EReal) (ix1 d) :=
  (read9 t (V m c main_arg6) d).trans (congrFun (V_main_arg6 m c) (ix1 d))

/-- Where element `(p, q)` of the block written at point `t` sits in the result: row `2000 t + p`, column `q`. -/
theorem blk10_emb (t : Fin cfg0.N) (p : Fin 2000) (q : Fin 128) (r : Fin 100000) (hr : r.val = t.val * 2000 + p.val) :
    (((cfg0.win 10).blk t).view.emb (ix2 p q) : S100000x128.Idx) = ix2 r q := by
  obtain ⟨-, -, -, -, -, -, -, -, -, -, ⟨e0, e1⟩⟩ := idx_facts t
  funext a; apply Fin.ext
  match a with
  | ⟨0, _⟩ => show win0_10.index t (0 : Fin 2) * 2000 + 1 * p.val = r.val; rw [e0, hr]; omega
  | ⟨1, _⟩ => show win0_10.index t (1 : Fin 2) * 128 + 1 * q.val = q.val; rw [e1]; omega

/-! ## What point `t` writes back -/

/-- WHAT POINT `t` WRITES BACK is block `t` of the result array `G`, when every graph number is below 16. -/
theorem flushed_eq (c : Dev nD) (hB : ∀ r : Fin 100000, ((m ((c : Thread nD τ).loc main_arg8) : S100000.Idx → BitVec 32) (ix1 r)).toNat < 16)
    (t : Fin cfg0.N) :
    (dats m 0 c).flushed 10 t = ((cfg0.win 10).blk t).view.read (Elt Ideal) (G m c) := by
  have hN : grid0.N = 50 := N_0
  rw [flushed10]
  unfold out0_10
  rw [View.canon_unit_zero hz2]
  simp only [View.ld_unit_zero (S := S2000x128) hz2, View.ld_unit_zero (S := S2000x1) hz2, View.ld_unit_zero (S := S16x128) hz2,
    View.ld_unit_zero (S := S128x128) hz2, View.ld_unit_zero (S := S128) hz1]
  funext y
  obtain ⟨p, q, rfl⟩ : ∃ (p : Fin 2000) (q : Fin 128), y = ix2 p q := ⟨y 0, y 1, eq_ix2 y⟩
  have ht : t.val < 50 := hN ▸ t.isLt
  have hp : p.val < 2000 := p.isLt
  obtain ⟨r, hr⟩ : ∃ r : Fin 100000, r.val = t.val * 2000 + p.val := ⟨⟨t.val * 2000 + p.val, by omega⟩, rfl⟩
  show k0_pay1 (F := Ideal) (k0_pay2 (F := Ideal) (iblk m c 0 t) (iblk m c 1 t) (iblk m c 2 t) (iblk m c 3 t) (iblk m c 4 t) (iblk m c 5 t) (iblk m c 6 t) (iblk m c 7 t))
      (iblk m c 8 t) (iblk m c 9 t) (ix2 p q) = G m c (((cfg0.win 10).blk t).view.emb (ix2 p q))
  rw [blk10_emb t p q r hr]
  show _ = Cert.Gnn.nodeRow _ _ _ _ _ _ _ _ r q
  refine (Point.body_apply (iblk m c 0 t) (iblk m c 1 t) (iblk m c 2 t) (iblk m c 3 t) (iblk m c 4 t) (iblk m c 5 t) (iblk m c 6 t)
    (iblk m c 7 t) (iblk m c 8 t) (iblk m c 9 t) p q
    (Cert.Gnn.gsel ((m ((c : Thread nD τ).loc main_arg8) : S100000.Idx → BitVec 32) (ix1 r))) ?_).trans ?_
  · rw [iblk2_apply m c t p r hr]
    exact Cert.Gnn.eq_ofNat_gsel _ (hB r)
  · unfold Cert.Gnn.nodeRow
    simp only [iblk0_apply m c t p _ r hr, iblk1_apply m c t p _ r hr, iblk3_apply m c t, iblk4_apply m c t, iblk5_apply m c t,
      iblk6_apply m c t, iblk7_apply m c t, iblk8_apply m c t, iblk9_apply m c t]

/-! ## The 50 blocks tile the result -/

theorem mem_blk (t : Fin cfg0.N) (i : S100000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v18).slice (win0_10.rect t)).set ↔ _
  rw [View.set_slice_whole, Rect.mem_set_unit]
  exact Iff.rfl

/-- Row `i₀` lies in the block of point `i₀ / 2000`. -/
theorem cover (i : S100000x128.Idx) : ∃ t : Fin cfg0.N, (cfg0.win 10).flush t = true ∧ i ∈ ((cfg0.win 10).blk t).view.set := by
  have hN : grid0.N = 50 := N_0
  have hi0 : (i 0).val < 100000 := (i 0).isLt
  have hi1 : (i 1).val < 128 := (i 1).isLt
  obtain ⟨t, ht⟩ : ∃ t : Fin cfg0.N, t.val = (i 0).val / 2000 := ⟨⟨(i 0).val / 2000, by show _ < grid0.N; omega⟩, rfl⟩
  obtain ⟨-, -, -, -, -, -, -, -, -, -, ⟨e0, e1⟩⟩ := idx_facts t
  refine ⟨t, flush0_10 t, ?_⟩
  rw [mem_blk]
  intro a
  match a with
  | ⟨0, _⟩ =>
    show win0_10.index t (0 : Fin 2) * 2000 ≤ (i 0).val ∧ (i 0).val < win0_10.index t (0 : Fin 2) * 2000 + 2000
    rw [e0, ht]; omega
  | ⟨1, _⟩ =>
    show win0_10.index t (1 : Fin 2) * 128 ≤ (i 1).val ∧ (i 1).val < win0_10.index t (1 : Fin 2) * 128 + 128
    rw [e1]; omega

/-- THE RESULT ARRAY after the run is `G`. -/
theorem final (c : Dev nD) (hB : ∀ r : Fin 100000, ((m ((c : Thread nD τ).loc main_arg8) : S100000.Idx → BitVec 32) (ix1 r)).toNat < 16) :
    (dats m 0 c).arrAt 10 cfg0.N = G m c :=
  (dats m 0 c).arrAt_eq_of_cover 10 (G m c) (fun t _ => flushed_eq m c hB t) cover

end Cert.KernelIdeal.Whole

end
-- ==== Proof.RefPoint.lean ====
/-
  The reference's result at one element, over the extended reals.

  The reference joins, for every node, its own features, the mean of its incoming edge features and the global
  features of its graph into one 384-wide row, multiplies by the 384 × 128 first-layer matrix, adds the bias, clamps
  below at zero, multiplies by the second-layer matrix and adds its bias. Read at row `r` and column `d`: the 384-term
  sum is cut into its three 128-term stretches, one per joined piece; the gathered piece is row `g0` of the table when
  the node's graph number is `g0` (a number in `0 … 15` is not negative, so it is not wrapped, and it is not clamped).
-/
import proofs.«428514_j44942537785403_1_alg».proof.Proof.Gen.ReferenceIdeal.Read
import proofs.«428514_j44942537785403_1_alg».proof.Proof.RowSpec
import Idealize.ShloMosaic.Lib.ValueIdx
import Idealize.ShloMosaic.Lib.Pipeline.Value
import Idealize.ShloMosaic.PureOps.Ideal.Laws

noncomputable section

open scoped BigOperators

namespace Cert.ReferenceIdeal.Point

open Cert.ReferenceIdeal Cert.ReferenceIdeal.Gen Cert.ReferenceIdeal.Read Idealize.ShloMosaic Idealize.ShloMosaic.ValueIdx

/-! ## The gathered row -/

/-- A row gather from the 16 × 128 table at `(r, j)`: the table's row at the start index of `r`, read signed and
    clamped into `0 … 15`, at column `j`. -/
theorem gather_row (x : S16x128.Idx → EReal) (idx : IVec S100000x1 32) (r : Fin 100000) (j : Fin 128) :
    Host.gather gather_S16x128_S100000x1_S100000x128_1_0_n_n_0_1_1128 x idx (ix2 r j)
      = x (ix2 (⟨min (idx (ix2 r (0 : Fin 1))).toInt.toNat 15, by omega⟩ : Fin 16) j) := by
  unfold Host.gather
  congr 1
  funext a
  refine Fin.ext ?_
  match a with
  | ⟨0, _⟩ =>
    show gather_S16x128_S100000x1_S100000x128_1_0_n_n_0_1_1128.start (ix2 r j) idx 0
        + gather_S16x128_S100000x1_S100000x128_1_0_n_n_0_1_1128.batchCoord (ix2 r j) 0
        + gather_S16x128_S100000x1_S100000x128_1_0_n_n_0_1_1128.offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S16x128.rank) ∈ gather_S16x128_S100000x1_S100000x128_1_0_n_n_0_1_1128.startIndexMap from List.mem_singleton.mpr rfl)]
    have hsi : gather_S16x128_S100000x1_S100000x128_1_0_n_n_0_1_1128.siIdx (ix2 r j)
        ⟨List.idxOf (0 : Fin S16x128.rank) gather_S16x128_S100000x1_S100000x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S16x128_S100000x1_S100000x128_1_0_n_n_0_1_1128.start (ix2 r j) idx 1
        + gather_S16x128_S100000x1_S100000x128_1_0_n_n_0_1_1128.batchCoord (ix2 r j) 1
        + gather_S16x128_S100000x1_S100000x128_1_0_n_n_0_1_1128.offCoord (ix2 r j) 1 = j.val
    rw [GatherDims.batchCoord_eq_zero _ _ _ List.not_mem_nil]
    have h0 : gather_S16x128_S100000x1_S100000x128_1_0_n_n_0_1_1128.start (ix2 r j) idx 1 = 0 := by
      unfold GatherDims.start
      rw [dif_neg (show ¬(1 : Fin S16x128.rank) ∈ gather_S16x128_S100000x1_S100000x128_1_0_n_n_0_1_1128.startIndexMap by decide)]
    have h1 : gather_S16x128_S100000x1_S100000x128_1_0_n_n_0_1_1128.offCoord (ix2 r j) 1 = j.val := by
      unfold GatherDims.offCoord
      rw [dif_pos (show (1 : Fin S16x128.rank) ∈ gather_S16x128_S100000x1_S100000x128_1_0_n_n_0_1_1128.sKept by decide)]
      rfl
    rw [h0, h1]
    omega

theorem not_neg16 : ∀ g0 : Fin 16, IntOp.cmpi .slt (BitVec.ofNat 32 g0.val) (0#32) = 0#1 := by decide
theorem clamp16 : ∀ g0 : Fin 16, min (BitVec.ofNat 32 g0.val).toInt.toNat 15 = g0.val := by decide

/-- The start index of row `r` after the wrap of negative numbers: a graph number in `0 … 15` is kept. -/
theorem wrapped_apply (x8 : IVec S100000 32) (r : Fin 100000) (g0 : Fin 16) (hb : x8 (ix1 r) = BitVec.ofNat 32 g0.val) :
    val_main_v19 (F := Ideal) x8 (ix2 r (0 : Fin 1)) = BitVec.ofNat 32 g0.val := by
  have e : idx_main_v19 (ix2 r (0 : Fin 1)) = ix1 r := funext fun a => Fin.ext (by match a with | ⟨0, _⟩ => rfl)
  rw [val_main_v19_apply, e, val_main_v18_apply, val_main_v15_apply, val_main_v14_apply, val_main_c_apply, hb, not_neg16]
  show (if (0#1 : BitVec 1) = 1 then _ else _) = _
  rw [if_neg (by decide)]

/-- The gathered piece at `(r, j)` is row `g0` of the table at column `j`. -/
theorem gathered_apply (x2 : S16x128.Idx → EReal) (x8 : IVec S100000 32) (r : Fin 100000) (j : Fin 128) (g0 : Fin 16)
    (hb : x8 (ix1 r) = BitVec.ofNat 32 g0.val) :
    val_main_v20 (F := Ideal) x2 x8 (ix2 r j) = x2 (ix2 g0 j) := by
  unfold val_main_v20
  rw [gather_row]
  congr 2
  refine Fin.ext ?_
  show min (val_main_v19 (F := Ideal) x8 (ix2 r (0 : Fin 1))).toInt.toNat 15 = g0.val
  rw [wrapped_apply x8 r g0 hb, clamp16]

/-! ## The three joined pieces -/

theorem joined_first (a0 a1 a2 : S100000x128.Idx → EReal) (r : Fin 100000) (j : Fin 128) :
    concatenate S100000x384 1 [⟨S100000x128, a0⟩, ⟨S100000x128, a1⟩, ⟨S100000x128, a2⟩]
        concatenates_S100000x128_S100000x128_S100000x128_S100000x384_d1 (ix2 r (⟨j.val, by omega⟩ : Fin 384)) = a0 (ix2 r j) :=
  concatenate_apply_piece (1 : Fin S100000x384.rank) [⟨S100000x128, a0⟩, ⟨S100000x128, a1⟩, ⟨S100000x128, a2⟩]
    concatenates_S100000x128_S100000x128_S100000x128_S100000x384_d1 _ 0 (show (0 : Nat) < 3 by decide) S100000x128 a0 rfl rfl 0 rfl (ix2 r j)
    (fun b hb => match b with
      | ⟨0, _⟩ => rfl
      | ⟨1, _⟩ => absurd (Fin.ext rfl) hb)
    (Nat.zero_add _)

theorem joined_second (a0 a1 a2 : S100000x128.Idx → EReal) (r : Fin 100000) (j : Fin 128) :
    concatenate S100000x384 1 [⟨S100000x128, a0⟩, ⟨S100000x128, a1⟩, ⟨S100000x128, a2⟩]
        concatenates_S100000x128_S100000x128_S100000x128_S100000x384_d1 (ix2 r (⟨128 + j.val, by omega⟩ : Fin 384)) = a1 (ix2 r j) :=
  concatenate_apply_piece (1 : Fin S100000x384.rank) [⟨S100000x128, a0⟩, ⟨S100000x128, a1⟩, ⟨S100000x128, a2⟩]
    concatenates_S100000x128_S100000x128_S100000x128_S100000x384_d1 _ 1 (show (1 : Nat) < 3 by decide) S100000x128 a1 rfl rfl 128 rfl (ix2 r j)
    (fun b hb => match b with
      | ⟨0, _⟩ => rfl
      | ⟨1, _⟩ => absurd (Fin.ext rfl) hb)
    rfl

theorem joined_third (a0 a1 a2 : S100000x128.Idx → EReal) (r : Fin 100000) (j : Fin 128) :
    concatenate S100000x384 1 [⟨S100000x128, a0⟩, ⟨S100000x128, a1⟩, ⟨S100000x128, a2⟩]
        concatenates_S100000x128_S100000x128_S100000x128_S100000x384_d1 (ix2 r (⟨256 + j.val, by omega⟩ : Fin 384)) = a2 (ix2 r j) :=
  concatenate_apply_piece (1 : Fin S100000x384.rank) [⟨S100000x128, a0⟩, ⟨S100000x128, a1⟩, ⟨S100000x128, a2⟩]
    concatenates_S100000x128_S100000x128_S100000x128_S100000x384_d1 _ 2 (show (2 : Nat) < 3 by decide) S100000x128 a2 rfl rfl 256 rfl (ix2 r j)
    (fun b hb => match b with
      | ⟨0, _⟩ => rfl
      | ⟨1, _⟩ => absurd (Fin.ext rfl) hb)
    rfl

/-! ## The hidden layer and the result -/

theorem lidx22 (r : Fin 100000) (k : Fin 128) (J : Fin 384) : lidx_main_v22 (ix2 r k) J = ix2 r J :=
  funext fun a => Fin.ext (by match a with | ⟨0, _⟩ => rfl | ⟨1, _⟩ => rfl)
theorem ridx22 (r : Fin 100000) (k : Fin 128) (J : Fin 384) : ridx_main_v22 (ix2 r k) J = ix2 J k :=
  funext fun a => Fin.ext (by match a with | ⟨0, _⟩ => rfl | ⟨1, _⟩ => rfl)
theorem lidx27 (r : Fin 100000) (d k : Fin 128) : lidx_main_v27 (ix2 r d) k = ix2 r k :=
  funext fun a => Fin.ext (by match a with | ⟨0, _⟩ => rfl | ⟨1, _⟩ => rfl)
theorem ridx27 (r : Fin 100000) (d k : Fin 128) : ridx_main_v27 (ix2 r d) k = ix2 k d :=
  funext fun a => Fin.ext (by match a with | ⟨0, _⟩ => rfl | ⟨1, _⟩ => rfl)

/-- The clamped hidden layer at `(r, k)`, when node `r` belongs to graph `g0`. -/
theorem hidden_apply (x0 : S100000x128.Idx → EReal) (x1 : S1600000x128.Idx → EReal) (x2 : S16x128.Idx → EReal)
    (x3 : S384x128.Idx → EReal) (x4 : S128.Idx → EReal) (x7 : IVec S2x1600000 32) (x8 : IVec S100000 32)
    (r : Fin 100000) (k : Fin 128) (g0 : Fin 16) (hb : x8 (ix1 r) = BitVec.ofNat 32 g0.val) :
    val_main_v26 (F := Ideal) x0 x1 x2 x3 x4 x7 x8 (ix2 r k)
      = max ((((∑ j : Fin 128, x0 (ix2 r j) * x3 (ix2 (⟨j.val, by omega⟩ : Fin 384) k))
          + ∑ j : Fin 128, val_main_v13 (F := Ideal) x1 x7 (ix2 r j) * x3 (ix2 (⟨128 + j.val, by omega⟩ : Fin 384) k))
          + ∑ j : Fin 128, x2 (ix2 g0 j) * x3 (ix2 (⟨256 + j.val, by omega⟩ : Fin 384) k)) + x4 (ix1 k)) 0 := by
  have eb : idx_main_v23 (idx_main_v24 (ix2 r k)) = ix1 k := funext fun a => Fin.ext (by match a with | ⟨0, _⟩ => rfl)
  rw [val_main_v26_apply, val_main_v25_apply, val_main_v22_apply, val_main_call0_v0_apply, val_main_call0_cst_apply,
    val_main_v24_apply, val_main_v23_apply, eb, Cert.Gnn.sum_three]
  show max (_ + _) (Ideal.ofBits .f32 0x00000000#32) = _
  rw [Ideal.ofBits_zero_f32]
  simp only [lidx22, ridx22]
  unfold val_main_v21
  simp only [joined_first, joined_second, joined_third, gathered_apply x2 x8 r _ g0 hb]

/-- The reference's result at `(r, d)` is the row formula of node `r`'s rows, with the global feature row of graph `g0`
    and the three 128-row slabs of the first-layer matrix. -/
theorem result_apply (x0 : S100000x128.Idx → EReal) (x1 : S1600000x128.Idx → EReal) (x2 : S16x128.Idx → EReal)
    (x3 : S384x128.Idx → EReal) (x4 : S128.Idx → EReal) (x5 : S128x128.Idx → EReal) (x6 : S128.Idx → EReal)
    (x7 : IVec S2x1600000 32) (x8 : IVec S100000 32)
    (r : Fin 100000) (d : Fin 128) (g0 : Fin 16) (hb : x8 (ix1 r) = BitVec.ofNat 32 g0.val) :
    val_main_v30 (F := Ideal) x0 x1 x2 x3 x4 x5 x6 x7 x8 (ix2 r d)
      = Cert.Gnn.rowOut (fun j => x0 (ix2 r j)) (fun j => val_main_v13 (F := Ideal) x1 x7 (ix2 r j)) (fun j => x2 (ix2 g0 j))
          (fun j k => x3 (ix2 (⟨j.val, by omega⟩ : Fin 384) k)) (fun j k => x3 (ix2 (⟨128 + j.val, by omega⟩ : Fin 384) k))
          (fun j k => x3 (ix2 (⟨256 + j.val, by omega⟩ : Fin 384) k)) (fun k => x4 (ix1 k))
          (fun k d => x5 (ix2 k d)) (fun d => x6 (ix1 d)) d := by
  have eb : idx_main_v28 (idx_main_v29 (ix2 r d)) = ix1 d := funext fun a => Fin.ext (by match a with | ⟨0, _⟩ => rfl)
  rw [val_main_v30_apply, val_main_v27_apply, val_main_v29_apply, val_main_v28_apply, eb]
  unfold Cert.Gnn.rowOut
  show _ + _ = _
  congr 1
  refine Finset.sum_congr rfl fun k _ => ?_
  rw [lidx27, ridx27, hidden_apply x0 x1 x2 x3 x4 x7 x8 r k g0 hb]

end Cert.ReferenceIdeal.Point

end
-- ==== Proof.MeanEdges.lean ====
/-
  The mean of the incoming edge features is the same array in both programs.

  Both programs compute it on the host with the same operations: the edge features added up per destination node, the
  edges counted per destination node, the count raised to at least one, and the quotient. The kernel's program hands
  the result to the kernel as one of its inputs; the reference joins it into its 384-wide rows. Written over the same
  argument arrays the two terms are one term, so the array is carried whole and never opened.
-/
import proofs.«428514_j44942537785403_1_alg».proof.Proof.Gen.KernelIdeal.Frame
import proofs.«428514_j44942537785403_1_alg».proof.Proof.Gen.ReferenceIdeal.Read
import Idealize.ShloMosaic.Lib.StableHlo.Run

noncomputable section

namespace Cert.KernelIdeal.MeanEdges

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The mean edge features the kernel is given are the reference's, of the same edge features and edge index. -/
theorem V_agg (c : Dev nD) : (V m c main_v13 : S100000x128.Idx → Elt F .f32)
    = Cert.ReferenceIdeal.Read.val_main_v13 (F := F) (m ((c : Thread nD τ).loc main_arg1)) (m ((c : Thread nD τ).loc main_arg7)) := by
  dsimp only [V, hostOps0]
  after_results
  rfl

end Cert.KernelIdeal.MeanEdges

end
-- ==== Proof.Bridge.lean ====
/-
  The reference's result is the kernel's result array.

  Both are, node by node, the row formula `Cert.Gnn.rowOut`: the kernel's by the three products of the three slabs
  (KernelValue), the reference's by cutting its one 384-term product into the three stretches of the joined row
  (RefPoint). The mean edge features are one array in both programs (MeanEdges), and with every graph number below 16
  the kernel's one-hot product and the reference's gather select the same row of the table of global features.
-/
import proofs.«428514_j44942537785403_1_alg».proof.Proof.KernelValue
import proofs.«428514_j44942537785403_1_alg».proof.Proof.RefPoint
import proofs.«428514_j44942537785403_1_alg».proof.Proof.MeanEdges

noncomputable section

namespace Cert.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The reference's result, of the kernel's argument arrays, is the kernel's result array. -/
theorem ref_eq_G (c : Dev nD) (hB : ∀ r : Fin 100000, ((m ((c : Thread nD τ).loc main_arg8) : S100000.Idx → BitVec 32) (ix1 r)).toNat < 16) :
    Cert.ReferenceIdeal.Read.val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8))
      = Cert.KernelIdeal.Whole.G m c := by
  funext i
  obtain ⟨r, d, rfl⟩ : ∃ (r : Fin 100000) (d : Fin 128), i = ix2 r d := ⟨i 0, i 1, eq_ix2 i⟩
  rw [Cert.ReferenceIdeal.Point.result_apply _ _ _ _ _ _ _ _ _ r d
    (Cert.Gnn.gsel ((m ((c : Thread nD τ).loc main_arg8) : S100000.Idx → BitVec 32) (ix1 r))) (Cert.Gnn.eq_ofNat_gsel _ (hB r))]
  show _ = Cert.Gnn.nodeRow _ _ _ _ _ _ _ _ r d
  unfold Cert.Gnn.nodeRow
  rw [Cert.KernelIdeal.MeanEdges.V_agg m c]

end Cert.Bridge

end
-- ==== Proof.PreRange.lean ====
/-
  What the precondition says of the graph numbers.

  The precondition is the conjunction of "every float input is finite" with "every graph number `b` satisfies
  `0 ≤ b` and `b < 16`" (both compared as signed 32-bit integers). Its last conjunct, read back at node `r`, says the
  word of node `r` is, as an unsigned number, below 16: a signed word that is not negative is its unsigned value.
-/
import proofs.«428514_j44942537785403_1_alg».proof.Pre_finite_inputs
import Idealize.ShloMosaic.Lib.ReduceAll
import Idealize.ShloMosaic.Lib.ValueIdx

noncomputable section

namespace Cert.Pre_finite_inputs.Range

open Cert.Pre_finite_inputs Idealize.ShloMosaic Idealize.ShloMosaic.ValueIdx

variable [Facts]
open Facts

instance : Subsingleton S_.Idx := ⟨fun a b => funext fun d => d.elim0⟩

/-- A 32-bit word that is at least 0 and less than 16 as a signed number is less than 16 as an unsigned one. -/
theorem toNat_lt_of_signed (b : BitVec 32) (h0 : (0#32 : BitVec 32).toInt ≤ b.toInt) (h1 : b.toInt < (16#32 : BitVec 32).toInt) :
    b.toNat < 16 := by
  have e0 : (0#32 : BitVec 32).toInt = 0 := by decide
  have e1 : (16#32 : BitVec 32).toInt = 16 := by decide
  rw [e0] at h0
  rw [e1] at h1
  have hb := b.isLt
  rw [BitVec.toInt_eq_toNat_cond] at h0 h1
  split at h0 <;> omega

variable {F : FTy → Type} [FloatOps F]

/-- Under the precondition every node's graph number is below 16. -/
theorem batch_lt (a0 : FVec F S100000x128 .f32) (a1 : FVec F S1600000x128 .f32) (a2 : FVec F S16x128 .f32)
    (a3 : FVec F S384x128 .f32) (a4 : FVec F S128 .f32) (a5 : FVec F S128x128 .f32) (a6 : FVec F S128 .f32)
    (a7 : IVec S2x1600000 32) (a8 : IVec S100000 32)
    (h : fn (F := F) a0 a1 a2 a3 a4 a5 a6 a7 a8 = fun _ => 1#1) (r : Fin 100000) : (a8 (ix1 r)).toNat < 16 := by
  have h0 := congrFun h (fun d => d.elim0)
  dsimp only [fn, fn_part1, fn_part2] at h0
  obtain ⟨-, h39⟩ := IntOp.andi_eq_one.1 h0
  have h38 := Host.reduce_andi_all _ _ reducesTo_S100000_S_d0 h_S_ _ h39 (ix1 r)
  obtain ⟨hge, hlt⟩ := IntOp.andi_eq_one.1 h38
  exact toNat_lt_of_signed _ (IntOp.cmpi_sge.1 hge) (IntOp.cmpi_slt.1 hlt)

end Cert.Pre_finite_inputs.Range

end
-- ==== Proof.lean ====
/-
  A graph-network node update: every node's new features are a two-layer perceptron of the node's own features, the
  mean of its incoming edge features and the global features of its graph.

  The kernel's program computes the mean edge features on the host, then one kernel works through the nodes in blocks
  of 2000: the global feature row is selected by multiplying the one-hot row of the node's graph number with the
  16-row table, and the first layer is three products, one per 128-row slab of its matrix. The reference joins the
  three pieces into 384-wide rows (the global row by a gather), multiplies once by the whole matrix, and goes on alike.

  Over the extended reals the two agree when every graph number lies in `0 … 15`: then the one-hot product is the
  gathered row (a sum weighted by the indicator of one index; `0 * a = 0` and `1 * a = a` for every `a`), and the
  384-term sum is the sum of its three 128-term stretches (associativity only). No other law is used, so finiteness of
  the float inputs is never opened. Outside `0 … 15` the reference wraps and clamps the number while the one-hot row is
  all zeros, so the range is part of the precondition.

  The frames of the two kernel programs are the generated ones; the reference's is its generated run with the result
  dropped; nothing was rewritten by the idealization, so `preserves` asks nothing.
-/
import proofs.«428514_j44942537785403_1_alg».proof.Defs
import proofs.«428514_j44942537785403_1_alg».proof.Proof.Gen.Kernel
import proofs.«428514_j44942537785403_1_alg».proof.Proof.Gen.Kernel.Skeleton
import proofs.«428514_j44942537785403_1_alg».proof.Proof.Gen.Kernel.Launch
import proofs.«428514_j44942537785403_1_alg».proof.Proof.Gen.Kernel.Points
import proofs.«428514_j44942537785403_1_alg».proof.Proof.Gen.Kernel.Frame
import proofs.«428514_j44942537785403_1_alg».proof.Proof.Gen.KernelIdeal
import proofs.«428514_j44942537785403_1_alg».proof.Proof.Gen.KernelIdeal.Skeleton
import proofs.«428514_j44942537785403_1_alg».proof.Proof.Gen.KernelIdeal.Launch
import proofs.«428514_j44942537785403_1_alg».proof.Proof.Gen.KernelIdeal.Points
import proofs.«428514_j44942537785403_1_alg».proof.Proof.Gen.KernelIdeal.Frame
import proofs.«428514_j44942537785403_1_alg».proof.Proof.Gen.ReferenceIdeal
import proofs.«428514_j44942537785403_1_alg».proof.Proof.Gen.Pre_finite_inputs
import proofs.«428514_j44942537785403_1_alg».proof.Proof.Gen.KernelIdeal.Value
import proofs.«428514_j44942537785403_1_alg».proof.Proof.Gen.ReferenceIdeal.Run
import proofs.«428514_j44942537785403_1_alg».proof.Proof.Gen.ReferenceIdeal.Read
import proofs.«428514_j44942537785403_1_alg».proof.Proof.Bridge
import proofs.«428514_j44942537785403_1_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values both programs end with the result array `Cert.Gnn.nodeUpdate` of the argument arrays: the
    kernel's run by its 50 blocks (KernelValue), the reference's run by its row read index by index (Bridge); the
    precondition gives every graph number below 16. -/
theorem algebraic : Cert.algebraic_KernelIdeal_ReferenceIdeal := by
  intro m ρ m' ρ' hpre hagree
  have hB : ∀ (c : Dev Cert.KernelIdeal.nD) (r : Fin 100000),
      ((m ((c : Thread Cert.KernelIdeal.nD Cert.KernelIdeal.τ).loc Cert.KernelIdeal.main_arg8) : Cert.KernelIdeal.S100000.Idx → BitVec 32) (ix1 r)).toNat < 16 :=
    fun c r => Cert.Pre_finite_inputs.Range.batch_lt _ _ _ _ _ _ _ _ _ (hpre c) r
  refine ⟨fun c => Cert.KernelIdeal.Whole.G m c, ?_, ?_⟩
  · exact (θ_run Cert.KernelIdeal.defs _ _).mono
      (fun r h c => ⟨(h c).1.trans (Cert.KernelIdeal.Whole.final m c (hB c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    exact Cert.Bridge.ref_eq_G m c (hB c)

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
